-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S600000 : Shape := ⟨1, ![600000]⟩
abbrev S300000 : Shape := ⟨1, ![300000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S20000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S600000 32) (main_arg9 : IVec S600000 32) (main_arg10 : IVec S300000 32) (main_arg11 : IVec S300000 32) (main_arg12 : IVec S300000 32) (main_arg13 : IVec S300000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S600000 : Shape := ⟨1, ![600000]⟩
abbrev S300000 : Shape := ⟨1, ![300000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S5000x1 : Shape := ⟨2, ![5000, 1]⟩
abbrev S600000x128 : Shape := ⟨2, ![600000, 128]⟩
abbrev S1x128 : Shape := ⟨2, ![1, 128]⟩
abbrev S20000 : Shape := ⟨1, ![20000]⟩
abbrev S300000x1 : Shape := ⟨2, ![300000, 1]⟩
abbrev S20000x1 : Shape := ⟨2, ![20000, 1]⟩
abbrev S300000x128 : Shape := ⟨2, ![300000, 128]⟩

abbrev nBuf : Space → Nat
  | .hbm => 135
  | .vmem => 21
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S600000, .i32⟩
  | 9 => ⟨S600000, .i32⟩
  | 10 => ⟨S300000, .i32⟩
  | 11 => ⟨S300000, .i32⟩
  | 12 => ⟨S300000, .i32⟩
  | 13 => ⟨S300000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S50000, .f32⟩
  | 48 => ⟨S50000x1, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S_, .f32⟩
  | 55 => ⟨S300000, .f32⟩
  | 56 => ⟨S_, .f32⟩
  | 57 => ⟨S20000, .f32⟩
  | 58 => ⟨S300000x1, .i32⟩
  | 59 => ⟨S20000, .f32⟩
  | 60 => ⟨S_, .f32⟩
  | 61 => ⟨S_, .f32⟩
  | 62 => ⟨S20000, .f32⟩
  | 63 => ⟨S20000, .f32⟩
  | 64 => ⟨S_, .f32⟩
  | 65 => ⟨S50000, .f32⟩
  | 66 => ⟨S300000x1, .i32⟩
  | 67 => ⟨S50000, .f32⟩
  | 68 => ⟨S_, .f32⟩
  | 69 => ⟨S_, .f32⟩
  | 70 => ⟨S50000, .f32⟩
  | 71 => ⟨S50000, .f32⟩
  | 72 => ⟨S20000x1, .f32⟩
  | 73 => ⟨S20000x128, .f32⟩
  | 74 => ⟨S_, .i32⟩
  | 75 => ⟨S300000, .i32⟩
  | 76 => ⟨S300000, .i1⟩
  | 77 => ⟨S_, .i32⟩
  | 78 => ⟨S300000, .i32⟩
  | 79 => ⟨S300000, .i32⟩
  | 80 => ⟨S300000, .i32⟩
  | 81 => ⟨S300000x1, .i32⟩
  | 82 => ⟨S300000x128, .f32⟩
  | 83 => ⟨S_, .f32⟩
  | 84 => ⟨S50000x128, .f32⟩
  | 85 => ⟨S300000x1, .i32⟩
  | 86 => ⟨S50000x128, .f32⟩
  | 87 => ⟨S50000, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S50000x128, .f32⟩
  | 95 => ⟨S_, .f32⟩
  | 96 => ⟨S300000, .f32⟩
  | 97 => ⟨S_, .f32⟩
  | 98 => ⟨S50000, .f32⟩
  | 99 => ⟨S300000x1, .i32⟩
  | 100 => ⟨S50000, .f32⟩
  | 101 => ⟨S_, .f32⟩
  | 102 => ⟨S_, .f32⟩
  | 103 => ⟨S50000, .f32⟩
  | 104 => ⟨S50000, .f32⟩
  | 105 => ⟨S_, .f32⟩
  | 106 => ⟨S20000, .f32⟩
  | 107 => ⟨S300000x1, .i32⟩
  | 108 => ⟨S20000, .f32⟩
  | 109 => ⟨S_, .f32⟩
  | 110 => ⟨S_, .f32⟩
  | 111 => ⟨S20000, .f32⟩
  | 112 => ⟨S20000, .f32⟩
  | 113 => ⟨S50000x1, .f32⟩
  | 114 => ⟨S50000x128, .f32⟩
  | 115 => ⟨S_, .i32⟩
  | 116 => ⟨S300000, .i32⟩
  | 117 => ⟨S300000, .i1⟩
  | 118 => ⟨S_, .i32⟩
  | 119 => ⟨S300000, .i32⟩
  | 120 => ⟨S300000, .i32⟩
  | 121 => ⟨S300000, .i32⟩
  | 122 => ⟨S300000x1, .i32⟩
  | 123 => ⟨S300000x128, .f32⟩
  | 124 => ⟨S_, .f32⟩
  | 125 => ⟨S20000x128, .f32⟩
  | 126 => ⟨S300000x1, .i32⟩
  | 127 => ⟨S20000x128, .f32⟩
  | _ => ⟨S50000x128, .f32⟩

abbrev hbmTy0_1 (i : Nat) : BufTy := match i % 128 with
  | 0 => ⟨S20000, .f32⟩
  | 1 => ⟨S20000x1, .f32⟩
  | 2 => ⟨S20000x128, .f32⟩
  | 3 => ⟨S20000x128, .f32⟩
  | 4 => ⟨S1x128, .f32⟩
  | 5 => ⟨S20000x128, .f32⟩
  | 6 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_4 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_8 : Ref sig .tc := ⟨.hbm, 60, rfl⟩
abbrev main_call2_v0 : Ref sig .tc := ⟨.hbm, 61, rfl⟩
abbrev main_call2_v1 : Ref sig .tc := ⟨.hbm, 62, rfl⟩
abbrev main_v32 : Ref sig .tc := ⟨.hbm, 63, rfl⟩
abbrev main_cst_9 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_10 : Ref sig .tc := ⟨.hbm, 68, rfl⟩
abbrev main_call3_v0 : Ref sig .tc := ⟨.hbm, 69, rfl⟩
abbrev main_call3_v1 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_11 : Ref sig .tc := ⟨.hbm, 74, rfl⟩
abbrev main_v39 : Ref sig .tc := ⟨.hbm, 75, rfl⟩
abbrev main_v40 : Ref sig .tc := ⟨.hbm, 76, rfl⟩
abbrev main_c_12 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_13 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_14 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_16 : Ref sig .tc := ⟨.hbm, 101, rfl⟩
abbrev main_call4_v0 : Ref sig .tc := ⟨.hbm, 102, rfl⟩
abbrev main_call4_v1 : Ref sig .tc := ⟨.hbm, 103, rfl⟩
abbrev main_v61 : Ref sig .tc := ⟨.hbm, 104, rfl⟩
abbrev main_cst_17 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_18 : Ref sig .tc := ⟨.hbm, 109, rfl⟩
abbrev main_call5_v0 : Ref sig .tc := ⟨.hbm, 110, rfl⟩
abbrev main_call5_v1 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_c_19 : Ref sig .tc := ⟨.hbm, 115, rfl⟩
abbrev main_v68 : Ref sig .tc := ⟨.hbm, 116, rfl⟩
abbrev main_v69 : Ref sig .tc := ⟨.hbm, 117, rfl⟩
abbrev main_c_20 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_21 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S300000 : S_.BroadcastsInDim S300000 (![] : Fin 0 → Fin S300000.rank)
  bcast_S_S20000 : S_.BroadcastsInDim S20000 (![] : Fin 0 → Fin S20000.rank)
  bcast_S300000_S300000x1_0 : S300000.BroadcastsInDim S300000x1 (![0] : Fin 1 → Fin S300000x1.rank)
  shapeCasts_S20000_S20000x1 : S20000.ShapeCasts S20000x1
  bcast_S_S20000x128 : S_.BroadcastsInDim S20000x128 (![] : Fin 0 → Fin S20000x128.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S1x128_S20000x128_0_1 : S1x128.BroadcastsInDim S20000x128 (![0, 1] : Fin 2 → Fin S20000x128.rank)
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S20000_S300000x1_S300000_n_0_0_1_wf : ScatterDims.WF S20000 S300000x1 S300000 [] [0] [0] 1
  scatter_S50000_S300000x1_S300000_n_0_0_1_wf : ScatterDims.WF S50000 S300000x1 S300000 [] [0] [0] 1
  gather_S20000x128_S300000x1_S300000x128_1_0_n_n_0_1_1128_wf : GatherDims.WF S20000x128 S300000x1 S300000x128 [1] [0] [] [0] [] 1 ![1, 128]
  scatter_S50000x128_S300000x1_S300000x128_1_0_0_1_wf : ScatterDims.WF S50000x128 S300000x1 S300000x128 [1] [0] [0] 1
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S20000x1.size a
  hwx1_2 : ∀ i : grid1.Coords, EltTy.bits .f32 = 32 ∨ (Rect.block (s := S20000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S20000x128.size a
  hwx1_3 : ∀ i : grid1.Coords, EltTy.bits .f32 = 32 ∨ (Rect.block (s := S20000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S20000x128 : Shape := ⟨2, ![20000, 128]⟩
abbrev S128x128 : Shape := ⟨2, ![128, 128]⟩
abbrev S128 : Shape := ⟨1, ![128]⟩
abbrev S600000 : Shape := ⟨1, ![600000]⟩
abbrev S300000 : Shape := ⟨1, ![300000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S20000 : Shape := ⟨1, ![20000]⟩
abbrev S300000x1 : Shape := ⟨2, ![300000, 1]⟩
abbrev S20000x1 : Shape := ⟨2, ![20000, 1]⟩
abbrev S300000x128 : Shape := ⟨2, ![300000, 128]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S20000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S600000, .i32⟩
  | 9 => ⟨S600000, .i32⟩
  | 10 => ⟨S300000, .i32⟩
  | 11 => ⟨S300000, .i32⟩
  | 12 => ⟨S300000, .i32⟩
  | 13 => ⟨S300000, .i32⟩
  | 14 => ⟨S_, .f32⟩
  | 15 => ⟨S600000, .f32⟩
  | 16 => ⟨S_, .f32⟩
  | 17 => ⟨S50000, .f32⟩
  | 18 => ⟨S600000x1, .i32⟩
  | 19 => ⟨S50000, .f32⟩
  | 20 => ⟨S_, .f32⟩
  | 21 => ⟨S_, .f32⟩
  | 22 => ⟨S50000, .f32⟩
  | 23 => ⟨S50000, .f32⟩
  | 24 => ⟨S_, .f32⟩
  | 25 => ⟨S50000, .f32⟩
  | 26 => ⟨S600000x1, .i32⟩
  | 27 => ⟨S50000, .f32⟩
  | 28 => ⟨S_, .f32⟩
  | 29 => ⟨S_, .f32⟩
  | 30 => ⟨S50000, .f32⟩
  | 31 => ⟨S50000, .f32⟩
  | 32 => ⟨S50000x128, .f32⟩
  | 33 => ⟨S_, .f32⟩
  | 34 => ⟨S50000, .f32⟩
  | 35 => ⟨S50000, .f32⟩
  | 36 => ⟨S50000x1, .f32⟩
  | 37 => ⟨S50000x128, .f32⟩
  | 38 => ⟨S50000x128, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S_, .f32⟩
  | 53 => ⟨S50000, .f32⟩
  | 54 => ⟨S50000, .f32⟩
  | 55 => ⟨S50000x1, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S300000, .f32⟩
  | 63 => ⟨S_, .f32⟩
  | 64 => ⟨S20000, .f32⟩
  | 65 => ⟨S300000x1, .i32⟩
  | 66 => ⟨S20000, .f32⟩
  | 67 => ⟨S_, .f32⟩
  | 68 => ⟨S_, .f32⟩
  | 69 => ⟨S20000, .f32⟩
  | 70 => ⟨S20000, .f32⟩
  | 71 => ⟨S_, .f32⟩
  | 72 => ⟨S50000, .f32⟩
  | 73 => ⟨S300000x1, .i32⟩
  | 74 => ⟨S50000, .f32⟩
  | 75 => ⟨S_, .f32⟩
  | 76 => ⟨S_, .f32⟩
  | 77 => ⟨S50000, .f32⟩
  | 78 => ⟨S50000, .f32⟩
  | 79 => ⟨S20000x128, .f32⟩
  | 80 => ⟨S_, .f32⟩
  | 81 => ⟨S20000, .f32⟩
  | 82 => ⟨S20000, .f32⟩
  | 83 => ⟨S20000x1, .f32⟩
  | 84 => ⟨S20000x128, .f32⟩
  | 85 => ⟨S20000x128, .f32⟩
  | 86 => ⟨S_, .i32⟩
  | 87 => ⟨S300000, .i32⟩
  | 88 => ⟨S300000, .i1⟩
  | 89 => ⟨S_, .i32⟩
  | 90 => ⟨S300000, .i32⟩
  | 91 => ⟨S300000, .i32⟩
  | 92 => ⟨S300000, .i32⟩
  | 93 => ⟨S300000x1, .i32⟩
  | 94 => ⟨S300000x128, .f32⟩
  | 95 => ⟨S_, .f32⟩
  | 96 => ⟨S50000x128, .f32⟩
  | 97 => ⟨S300000x1, .i32⟩
  | 98 => ⟨S50000x128, .f32⟩
  | 99 => ⟨S_, .f32⟩
  | 100 => ⟨S50000, .f32⟩
  | 101 => ⟨S50000, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S50000x128, .f32⟩
  | 109 => ⟨S_, .f32⟩
  | 110 => ⟨S300000, .f32⟩
  | 111 => ⟨S_, .f32⟩
  | 112 => ⟨S50000, .f32⟩
  | 113 => ⟨S300000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S_, .f32⟩
  | 120 => ⟨S20000, .f32⟩
  | 121 => ⟨S300000x1, .i32⟩
  | 122 => ⟨S20000, .f32⟩
  | 123 => ⟨S_, .f32⟩
  | 124 => ⟨S_, .f32⟩
  | 125 => ⟨S20000, .f32⟩
  | 126 => ⟨S20000, .f32⟩
  | 127 => ⟨S50000x128, .f32⟩
  | _ => ⟨S50000x128, .f32⟩

abbrev hbmTy0_1 (i : Nat) : BufTy := match i % 128 with
  | 0 => ⟨S_, .f32⟩
  | 1 => ⟨S50000, .f32⟩
  | 2 => ⟨S50000, .f32⟩
  | 3 => ⟨S50000x1, .f32⟩
  | 4 => ⟨S50000x128, .f32⟩
  | 5 => ⟨S50000x128, .f32⟩
  | 6 => ⟨S_, .i32⟩
  | 7 => ⟨S300000, .i32⟩
  | 8 => ⟨S300000, .i1⟩
  | 9 => ⟨S_, .i32⟩
  | 10 => ⟨S300000, .i32⟩
  | 11 => ⟨S300000, .i32⟩
  | 12 => ⟨S300000, .i32⟩
  | 13 => ⟨S300000x1, .i32⟩
  | 14 => ⟨S300000x128, .f32⟩
  | 15 => ⟨S_, .f32⟩
  | 16 => ⟨S20000x128, .f32⟩
  | 17 => ⟨S300000x1, .i32⟩
  | 18 => ⟨S20000x128, .f32⟩
  | 19 => ⟨S_, .f32⟩
  | 20 => ⟨S20000, .f32⟩
  | 21 => ⟨S20000, .f32⟩
  | 22 => ⟨S20000x1, .f32⟩
  | 23 => ⟨S20000x128, .f32⟩
  | 24 => ⟨S20000x128, .f32⟩
  | 25 => ⟨S1x128, .f32⟩
  | 26 => ⟨S20000x128, .f32⟩
  | 27 => ⟨S20000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_v9 : Ref sig .tc := ⟨.hbm, 32, rfl⟩
abbrev main_cst_4 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_8 : Ref sig .tc := ⟨.hbm, 61, rfl⟩
abbrev main_v33 : Ref sig .tc := ⟨.hbm, 62, rfl⟩
abbrev main_cst_9 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_10 : Ref sig .tc := ⟨.hbm, 67, rfl⟩
abbrev main_call2_v0 : Ref sig .tc := ⟨.hbm, 68, rfl⟩
abbrev main_call2_v1 : Ref sig .tc := ⟨.hbm, 69, rfl⟩
abbrev main_v37 : Ref sig .tc := ⟨.hbm, 70, rfl⟩
abbrev main_cst_11 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_12 : Ref sig .tc := ⟨.hbm, 75, rfl⟩
abbrev main_call3_v0 : Ref sig .tc := ⟨.hbm, 76, rfl⟩
abbrev main_call3_v1 : Ref sig .tc := ⟨.hbm, 77, rfl⟩
abbrev main_v41 : Ref sig .tc := ⟨.hbm, 78, rfl⟩
abbrev main_v42 : Ref sig .tc := ⟨.hbm, 79, rfl⟩
abbrev main_cst_13 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c_14 : Ref sig .tc := ⟨.hbm, 86, rfl⟩
abbrev main_v48 : Ref sig .tc := ⟨.hbm, 87, rfl⟩
abbrev main_v49 : Ref sig .tc := ⟨.hbm, 88, rfl⟩
abbrev main_c_15 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_16 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_17 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_18 : Ref sig .tc := ⟨.hbm, 109, rfl⟩
abbrev main_v67 : Ref sig .tc := ⟨.hbm, 110, rfl⟩
abbrev main_cst_19 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_20 : Ref sig .tc := ⟨.hbm, 115, rfl⟩
abbrev main_call4_v0 : Ref sig .tc := ⟨.hbm, 116, rfl⟩
abbrev main_call4_v1 : Ref sig .tc := ⟨.hbm, 117, rfl⟩
abbrev main_v71 : Ref sig .tc := ⟨.hbm, 118, rfl⟩
abbrev main_cst_21 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_22 : Ref sig .tc := ⟨.hbm, 123, rfl⟩
abbrev main_call5_v0 : Ref sig .tc := ⟨.hbm, 124, rfl⟩
abbrev main_call5_v1 : Ref sig .tc := ⟨.hbm, 125, rfl⟩
abbrev main_v75 : Ref sig .tc := ⟨.hbm, 126, rfl⟩
abbrev main_v76 : Ref sig .tc := ⟨.hbm, 127, rfl⟩
abbrev main_cst_23 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_c_24 : Ref sig .tc := ⟨.hbm, 134, rfl⟩
abbrev main_v82 : Ref sig .tc := ⟨.hbm, 135, rfl⟩
abbrev main_v83 : Ref sig .tc := ⟨.hbm, 136, rfl⟩
abbrev main_c_25 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_26 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_27 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S300000 : S_.BroadcastsInDim S300000 (![] : Fin 0 → Fin S300000.rank)
  bcast_S_S20000 : S_.BroadcastsInDim S20000 (![] : Fin 0 → Fin S20000.rank)
  bcast_S300000_S300000x1_0 : S300000.BroadcastsInDim S300000x1 (![0] : Fin 1 → Fin S300000x1.rank)
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S20000_S300000x1_S300000_n_0_0_1_wf : ScatterDims.WF S20000 S300000x1 S300000 [] [0] [0] 1
  scatter_S50000_S300000x1_S300000_n_0_0_1_wf : ScatterDims.WF S50000 S300000x1 S300000 [] [0] [0] 1
  dot_S20000x128_S128x128_S20000x128_1_0_0_1_n_n_wf : DotDims.WF S20000x128 S128x128 S20000x128 [1] [0] [0] [1] [] []
  gather_S20000x128_S300000x1_S300000x128_1_0_n_n_0_1_1128_wf : GatherDims.WF S20000x128 S300000x1 S300000x128 [1] [0] [] [0] [] 1 ![1, 128]
  scatter_S50000x128_S300000x1_S300000x128_1_0_0_1_wf : ScatterDims.WF S50000x128 S300000x1 S300000x128 [1] [0] [0] 1
  gather_S50000x128_S300000x1_S300000x128_1_0_n_n_0_1_1128_wf : GatherDims.WF S50000x128 S300000x1 S300000x128 [1] [0] [] [0] [] 1 ![1, 128]
  scatter_S20000x128_S300000x1_S300000x128_1_0_0_1_wf : ScatterDims.WF S20000x128 S300000x1 S300000x128 [1] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S20000x128_S300000x1_S300000x128_1_0_0_1 : ScatterDims S20000x128 S300000x1 S300000x128 where
  updateWindowDims := [1]
  insertedWindowDims := [0]
  scatterDimsToOperandDims := [0]
  indexVectorDim := 1
  wf := scatter_S20000x128_S300000x1_S300000x128_1_0_0_1_wf

class Facts : Prop extends Facts₀ where

variable [Facts]
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.Law.lean ====
/-
  The one law of real arithmetic this certificate rests on: at or above 1 the reciprocal square root of an extended
  real is its power −1/2. A node degree clipped below at 1 is such a number (or +∞, where both sides are 0), so a
  degree normalisation written with a reciprocal square root and one written with the exponent −1/2 agree.
-/
import Idealize.ShloMosaic.PureOps.Ideal
import Idealize.ShloMosaic.PureOps.Vector

noncomputable section

namespace Cert.GraphConv

open Idealize.ShloMosaic

/-- The single-precision word `0xBF000000` denotes −1/2. -/
theorem ofBits_neg_half : Ideal.ofBits .f32 0xBF000000#32 = ((-(1 / 2) : ℝ) : EReal) := by
  simp [Ideal.ofBits, Ideal.ieee, -EReal.coe_mul]; norm_num

/-- The single-precision word `0x3F800000` denotes 1. -/
theorem ofBits_one : Ideal.ofBits .f32 0x3F800000#32 = 1 := by
  simp [Ideal.ofBits, Ideal.ieee, -EReal.coe_mul]; norm_num

/-- At or above 1, the reciprocal square root is the power −1/2: for a real `r ≥ 1` both are `(√r)⁻¹`, and at +∞
    both are 0. -/
theorem rsqrt_eq_pow_neg_half (x : EReal) (hx : 1 ≤ x) :
    Ideal.rsqrt x = Ideal.pow x ((-(1 / 2) : ℝ) : EReal) := by
  induction x using EReal.rec with
  | bot => exact absurd hx (not_le.mpr (by exact_mod_cast EReal.bot_lt_coe (1 : ℝ)))
  | top =>
    rw [Ideal.rsqrt_top, Ideal.pow_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [if_neg h1, if_neg h2]
  | coe r =>
    have hr : (1 : ℝ) ≤ r := by exact_mod_cast hx
    rw [Ideal.rsqrt_coe, Ideal.pow_coe_coe, if_neg (by linarith), if_neg (by linarith)]
    congr 1
    show (Real.sqrt r)⁻¹ = r ^ (-(1 / 2) : ℝ)
    rw [Real.rpow_neg (by linarith), Real.sqrt_eq_rpow]

/-- The same for whole vectors: a vector bounded below by the all-ones vector (a clipped degree vector) has the same
    reciprocal square root, taken by the host's `rsqrt`, as power −1/2, taken by the host's `power`. -/
theorem host_rsqrt_max_eq_powf {s : Shape} (one X nh : FVec Ideal s .f32)
    (h1 : ∀ i, one i = Ideal.ofBits .f32 0x3F800000#32) (hn : ∀ i, nh i = Ideal.ofBits .f32 0xBF000000#32) :
    Host.rsqrt (maximumf one X) = Host.powf (maximumf one X) nh := by
  funext i
  show Ideal.rsqrt (max (one i) (X i)) = Ideal.pow (max (one i) (X i)) (nh i)
  rw [hn i, ofBits_neg_half, h1 i, ofBits_one]
  exact rsqrt_eq_pow_neg_half _ (le_max_left _ _)

/-- And for the kernel's own `rsqrt` of such a vector. -/
theorem rsqrt_max_eq_powf {s : Shape} (one X nh : FVec Ideal s .f32)
    (h1 : ∀ i, one i = Ideal.ofBits .f32 0x3F800000#32) (hn : ∀ i, nh i = Ideal.ofBits .f32 0xBF000000#32) :
    rsqrt (maximumf one X) = Host.powf (maximumf one X) nh := by
  funext i
  show Ideal.rsqrt (max (one i) (X i)) = Ideal.pow (max (one i) (X i)) (nh i)
  rw [hn i, ofBits_neg_half, h1 i, ofBits_one]
  exact rsqrt_eq_pow_neg_half _ (le_max_left _ _)

end Cert.GraphConv

end
-- ==== Proof.Transform.lean ====
/-
  The dense stage of one relation of the graph convolution, as ONE function of whole arrays: for node features X of
  shape [n, 128], a weight W of shape [128, 128] and an out-degree column D of shape [n, 1], entry (p, q) is

      (Σ over k < 128 of X(p, k) · W(k, q)) · D(p, 0)^(-1/2),

  the p-th row of X·W scaled by the reciprocal square root of node p's degree. Three facts about it:
  the kernel body computes it on a block of 5000 rows (a matrix product into the zero accumulator, the narrowing of
  the operands to bf16 being the identity on the extended reals, times the broadcast reciprocal square root);
  a block of rows of the function over the whole arrays is the function over the blocks of rows; and, when the degree
  is a vector clipped below at 1, it is the reference's spelling — the host's dot product times the broadcast power
  −1/2 of the degree.
-/
import proofs.«164379_j69793218560321_1_alg».proof.KernelIdeal
import proofs.«164379_j69793218560321_1_alg».proof.Proof.LibOuterDot
import proofs.«164379_j69793218560321_1_alg».proof.Proof.Law
import Idealize.ShloMosaic.Lib.ValueIdx
import Idealize.ShloMosaic.Lib.Pipeline.Value
import Idealize.ShloMosaic.PureOps.Ideal.Laws

noncomputable section

open scoped BigOperators

namespace Cert.GraphConv

open Idealize.ShloMosaic Idealize.ShloMosaic.ValueIdx

/-- Row p of X·W times the reciprocal square root of the p-th degree. -/
def transform {n : ℕ} (x : (⟨2, ![n, 128]⟩ : Shape).Idx → EReal) (w : (⟨2, ![128, 128]⟩ : Shape).Idx → EReal)
    (d : (⟨2, ![n, 1]⟩ : Shape).Idx → EReal) : (⟨2, ![n, 128]⟩ : Shape).Idx → EReal :=
  fun i => (∑ k : Fin 128, x (ix2 (i 0) k) * w (ix2 k (i 1))) * Ideal.rsqrt (d (ix2 (i 0) (0 : Fin 1)))

theorem transform_apply {n : ℕ} (x : (⟨2, ![n, 128]⟩ : Shape).Idx → EReal) (w : (⟨2, ![128, 128]⟩ : Shape).Idx → EReal)
    (d : (⟨2, ![n, 1]⟩ : Shape).Idx → EReal) (p : Fin n) (q : Fin 128) :
    transform x w d (ix2 p q) = (∑ k : Fin 128, x (ix2 p k) * w (ix2 k q)) * Ideal.rsqrt (d (ix2 p (0 : Fin 1))) := rfl

/-- Rows b·5000 … b·5000 + 4999 of the function over whole arrays are the function over those rows of X and D (and all
    of W): entry (p, q) of the block is entry (b·5000 + p, q) of the whole. -/
theorem transform_rows {n : ℕ} (X : (⟨2, ![n, 128]⟩ : Shape).Idx → EReal) (W : (⟨2, ![128, 128]⟩ : Shape).Idx → EReal)
    (D : (⟨2, ![n, 1]⟩ : Shape).Idx → EReal)
    (xb : (⟨2, ![5000, 128]⟩ : Shape).Idx → EReal) (wb : (⟨2, ![128, 128]⟩ : Shape).Idx → EReal)
    (db : (⟨2, ![5000, 1]⟩ : Shape).Idx → EReal) (p : Fin 5000) (q : Fin 128) (P : Fin n)
    (hx : ∀ k : Fin 128, xb (ix2 p k) = X (ix2 P k)) (hw : ∀ k : Fin 128, wb (ix2 k q) = W (ix2 k q))
    (hd : db (ix2 p (0 : Fin 1)) = D (ix2 P (0 : Fin 1))) :
    transform xb wb db (ix2 p q) = transform X W D (ix2 P q) := by
  rw [transform_apply, transform_apply, hd]
  congr 1
  exact Finset.sum_congr rfl fun k _ => by rw [hx k, hw k]

/-- On the extended reals the host's dot product is the matrix product into the zero accumulator: the same sum. -/
theorem dotGeneral_eq_matmul_zero {sl sr so : Shape} {φ₁ φ₂ : FTy} (d : DotDims sl sr so) (prec : Option ContractPrecision)
    (A : FVec Ideal sl φ₁) (B : FVec Ideal sr φ₂) :
    Host.dotGeneral d prec A B = matmul d prec A B (constant so .f32 0x00000000#32) := by
  funext j
  simp only [Host.dotGeneral, matmul]
  rw [Ideal.dotGeneral_apply, Ideal.matmul_constant_zero_apply]

section Body

open Cert.KernelIdeal
variable [Cert.KernelIdeal.Facts₀]

/-- The kernel body's arithmetic on its three loaded blocks: the product of the rows by the weight, both narrowed to
    bf16, accumulated from zero in f32, times the reciprocal square root of the degree column broadcast along the rows. -/
def body (v0 : Vec Ideal S5000x128 .f32) (v2 : Vec Ideal S128x128 .f32) (v5 : Vec Ideal S5000x1 .f32) : FVec Ideal S5000x128 .f32 :=
  have v1 : FVec Ideal S5000x128 .bf16 := truncf .bf16 v0 Facts₀.bitsLt_bf16_f32
  have v3 : FVec Ideal S128x128 .bf16 := truncf .bf16 v2 Facts₀.bitsLt_bf16_f32
  have cst : FVec Ideal S5000x128 .f32 := constant S5000x128 .f32 0x00000000#32
  have v4 : FVec Ideal S5000x128 .f32 := matmul dot_S5000x128_S128x128_S5000x128_1_0_0_1_n_n none v1 v3 cst
  have v6 : FVec Ideal S5000x1 .f32 := shapeCast S5000x1 v5 Facts₀.shapeCasts_S5000x1_S5000x1
  have v7 : FVec Ideal S5000x1 .f32 := rsqrt v6
  have v8 : FVec Ideal S5000x128 .f32 := broadcastTo S5000x128 v7 Facts₀.broadcasts_S5000x1_S5000x128
  mulf v4 v8

/-- The body computes the dense stage on its block. -/
theorem body_eq_transform (v0 : Vec Ideal S5000x128 .f32) (v2 : Vec Ideal S128x128 .f32) (v5 : Vec Ideal S5000x1 .f32) :
    body v0 v2 v5 = transform (n := 5000) v0 v2 v5 := by
  funext j
  obtain ⟨p, q, rfl⟩ : ∃ (p : Fin 5000) (q : Fin 128), j = ix2 p q := ⟨j 0, j 1, eq_ix2 j⟩
  rw [transform_apply]
  show (matmul dot_S5000x128_S128x128_S5000x128_1_0_0_1_n_n none (truncf (F := Ideal) .bf16 v0 Facts₀.bitsLt_bf16_f32)
      (truncf (F := Ideal) .bf16 v2 Facts₀.bitsLt_bf16_f32) (constant S5000x128 .f32 0x00000000#32) (ix2 p q) : EReal)
    * (broadcastTo S5000x128 (rsqrt (F := Ideal) (φ := .f32) (shapeCast S5000x1 v5 Facts₀.shapeCasts_S5000x1_S5000x1)) Facts₀.broadcasts_S5000x1_S5000x128 (ix2 p q) : EReal) = _
  congr 1
  · exact (LibOuterDot.matmul_zero_ix2 dot_S5000x128_S128x128_S5000x128_1_0_0_1_n_n rfl rfl rfl rfl rfl rfl rfl rfl none _ _ p q)
  · refine (broadcastTo_apply _ Facts₀.broadcasts_S5000x1_S5000x128 (ix2 p q) (ix2 p (0 : Fin 1)) ?_).trans ?_
    · intro a
      match a with
      | ⟨0, _⟩ => rfl
      | ⟨1, _⟩ => rfl
    · show Ideal.rsqrt (shapeCast S5000x1 v5 Facts₀.shapeCasts_S5000x1_S5000x1 (ix2 p (0 : Fin 1))) = _
      rw [shapeCast_self]

end Body

/-- The reference's spelling of the dense stage, when the degree is a vector clipped below at 1: the host's dot product
    times the power −1/2 of the degree, broadcast to a column and then along the rows. The degree reaches the kernel
    reshaped to a column. -/
theorem transform_eq_dot_pow {n : ℕ}
    (d : DotDims ⟨2, ![n, 128]⟩ ⟨2, ![128, 128]⟩ ⟨2, ![n, 128]⟩) (hr : d.contr.rank = 1) (hs : d.contr.size ⟨0, by omega⟩ = 128)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![n, 128]⟩ .f32) (w : FVec Ideal ⟨2, ![128, 128]⟩ .f32)
    (one X nh : FVec Ideal ⟨1, ![n]⟩ .f32) (h1 : ∀ i, one i = Ideal.ofBits .f32 0x3F800000#32)
    (hn : ∀ i, nh i = Ideal.ofBits .f32 0xBF000000#32)
    (hsc : (⟨1, ![n]⟩ : Shape).ShapeCasts ⟨2, ![n, 1]⟩)
    (hb1 : (⟨1, ![n]⟩ : Shape).BroadcastsInDim ⟨2, ![n, 1]⟩ ![0])
    (hb2 : (⟨2, ![n, 1]⟩ : Shape).BroadcastsInDim ⟨2, ![n, 128]⟩ ![0, 1]) :
    transform x w (shapeCast ⟨2, ![n, 1]⟩ (maximumf one X) hsc)
      = mulf (Host.dotGeneral d none x w)
          (broadcastInDim ⟨2, ![n, 128]⟩ ![0, 1] hb2 (broadcastInDim ⟨2, ![n, 1]⟩ ![0] hb1 (Host.powf (maximumf one X) nh))) := by
  funext j
  obtain ⟨p, q, rfl⟩ : ∃ (p : Fin n) (q : Fin 128), j = ix2 p q := ⟨j 0, j 1, eq_ix2 j⟩
  rw [transform_apply]
  show _ = (Host.dotGeneral d none x w (ix2 p q) : EReal)
    * (broadcastInDim ⟨2, ![n, 128]⟩ ![0, 1] hb2 (broadcastInDim ⟨2, ![n, 1]⟩ ![0] hb1 (Host.powf (maximumf one X) nh)) (ix2 p q) : EReal)
  rw [dotGeneral_eq_matmul_zero, LibOuterDot.matmul_zero_ix2 d hr hs hlc hrc hln hrn hlb hrb]
  congr 1
  have e1 : shapeCast ⟨2, ![n, 1]⟩ (maximumf one X) hsc (ix2 p (0 : Fin 1)) = maximumf one X (ix1 p) :=
    shapeCast_apply _ hsc _ _ (by rw [Shape.rowMajor_val_two, Shape.rowMajor_val_one]; show p.val = p.val * 1 + 0; omega)
  have e2 : broadcastInDim ⟨2, ![n, 128]⟩ ![0, 1] hb2 (broadcastInDim ⟨2, ![n, 1]⟩ ![0] hb1 (Host.powf (maximumf one X) nh)) (ix2 p q)
      = Host.powf (maximumf one X) nh (ix1 p) := by
    refine (broadcastInDim_apply _ hb2 _ (ix2 p q) (ix2 p (0 : Fin 1)) ?_).trans
      (broadcastInDim_apply _ hb1 _ (ix2 p (0 : Fin 1)) (ix1 p) ?_)
    · intro a
      match a with
      | ⟨0, _⟩ =>
        show p.val = if n = 1 then 0 else p.val
        split
        · have := p.isLt; omega
        · rfl
      | ⟨1, _⟩ => rfl
    · intro a
      match a with
      | ⟨0, _⟩ =>
        show p.val = if n = 1 then 0 else p.val
        split
        · have := p.isLt; omega
        · rfl
  rw [e1, e2, ← host_rsqrt_max_eq_powf one X nh h1 hn]
  rfl

end Cert.GraphConv

end
-- ==== Proof.Region0.lean ====
/-
  Region 0 of the kernel's program (the dense stage of the relation from the first node type to itself): what its
  output array holds after the region, as one function of the arrays the region finds.
  Grid point t stages rows 5000·t … 5000·t + 4999 of the features and of the degree column and all of the weight, and
  writes back the body's result as rows 5000·t … of the output. The body's result on a block is the dense stage on the
  block; a block of rows of the dense stage over whole arrays is the dense stage over the blocks of rows; the ten blocks
  cover the 50000 rows. So the output array ends holding the dense stage of the whole arrays.
-/
import proofs.«164379_j69793218560321_1_alg».proof.Proof.Gen.KernelIdeal.Frame
import proofs.«164379_j69793218560321_1_alg».proof.Proof.Transform
import Idealize.ShloMosaic.Lib.Pipeline.Value

set_option maxRecDepth 16384

noncomputable section

namespace Cert.KernelIdeal.Region0

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload is the dense stage's block form. -/
theorem pay_eq (x0 : Vec Ideal S5000x128 .f32) (x1 : Vec Ideal S128x128 .f32) (x2 : Vec Ideal S5000x1 .f32) :
    k0_pay1 x0 x1 x2 = transform (n := 5000) x0 x1 x2 :=
  (show k0_pay1 x0 x1 x2 = body x0 x1 x2 from rfl).trans (body_eq_transform x0 x1 x2)

/-- The index maps over the grid: the features, the degree column and the output move down one block of rows per
    point; the weight stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is rows 5000·t … of the dense stage of the arrays as the region finds them. -/
theorem flushed_eq (c : Dev nD) (t : Fin cfg0.N) :
    (dat0 V c).flushed 3 t = ((cfg0.win 3).blk t).view.read (Elt Ideal)
      (transform (n := 50000) (V c main_arg0) (V c main_arg2) (V c main_v9)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  rw [pay_eq]
  obtain ⟨e00, e01, e10, e11, e20, e21, e30, e31⟩ := idx_facts t
  have hN : t.val < 10 := lt_of_lt_of_eq t.isLt N_0
  funext j
  obtain ⟨p, q, rfl⟩ : ∃ (p : Fin 5000) (q : Fin 128), j = ix2 p q := ⟨j 0, j 1, eq_ix2 j⟩
  have hP : t.val * 5000 + p.val < 50000 := by have := p.isLt; omega
  show transform (n := 5000) (iblk0 V c 0 t) (iblk0 V c 1 t) (iblk0 V c 2 t) (ix2 p q)
    = transform (n := 50000) (V c main_arg0) (V c main_arg2) (V c main_v9) (((cfg0.win 3).blk t).view.emb (ix2 p q))
  have hemb : ((cfg0.win 3).blk t).view.emb (ix2 p q) = ix2 (⟨t.val * 5000 + p.val, hP⟩ : Fin 50000) q := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 128 + 1 * q.val = q.val; rw [e31]; omega
  rw [hemb]
  refine transform_rows _ _ _ _ _ _ p q ⟨t.val * 5000 + p.val, hP⟩ (fun k => ?_) (fun k => ?_) ?_
  · show V c main_arg0 (((cfg0.win 0).blk t).view.emb (ix2 p k)) = V c main_arg0 (ix2 (⟨t.val * 5000 + p.val, hP⟩ : Fin 50000) k)
    congr 1
    funext a; apply Fin.ext
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · show V c main_arg2 (((cfg0.win 1).blk t).view.emb (ix2 k q)) = V c main_arg2 (ix2 k q)
    congr 1
    funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · show V c main_v9 (((cfg0.win 2).blk t).view.emb (ix2 p (0 : Fin 1))) = V c main_v9 (ix2 (⟨t.val * 5000 + p.val, hP⟩ : Fin 50000) (0 : Fin 1))
    congr 1
    funext a; apply Fin.ext
    match a with
    | ⟨0, _⟩ => show win0_2.index t (0 : Fin 2) * 5000 + 1 * p.val = t.val * 5000 + p.val; rw [e20]; omega
    | ⟨1, _⟩ => show win0_2.index t (1 : Fin 2) * 1 + 1 * 0 = 0; rw [e21]

/-- An index of the output array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v10).slice (win0_3.rect t)).set ↔ _
  rw [View.set_slice_whole, Rect.mem_set_unit]
  exact Iff.rfl

/-- The output array after the region is the dense stage of the arrays as the region finds them: row r is written by
    point r / 5000. -/
theorem final (c : Dev nD) :
    (dat0 V c).arrAt 3 cfg0.N = transform (n := 50000) (V c main_arg0) (V c main_arg2) (V c main_v9) :=
  (dat0 V c).arrAt_eq_of_cover 3 _ (fun t _ => flushed_eq V c t) fun i => by
    have hi0 : (i 0).val < 50000 := (i 0).isLt
    have hi1 : (i 1).val < 128 := (i 1).isLt
    have hN : cfg0.N = 10 := N_0
    let t : Fin cfg0.N := ⟨(i 0).val / 5000, by rw [hN]; omega⟩
    obtain ⟨e00, e01, e10, e11, e20, e21, e30, e31⟩ := idx_facts t
    refine ⟨t, flush0_3 t, ?_⟩
    rw [mem_blk]
    intro a
    match a with
    | ⟨0, _⟩ =>
      show win0_3.index t (0 : Fin 2) * 5000 ≤ (i 0).val ∧ (i 0).val < win0_3.index t (0 : Fin 2) * 5000 + 5000
      rw [e30]; show (i 0).val / 5000 * 5000 ≤ (i 0).val ∧ (i 0).val < (i 0).val / 5000 * 5000 + 5000; omega
    | ⟨1, _⟩ =>
      show win0_3.index t (1 : Fin 2) * 128 ≤ (i 1).val ∧ (i 1).val < win0_3.index t (1 : Fin 2) * 128 + 128
      rw [e31]; omega

end Cert.KernelIdeal.Region0

end
-- ==== Proof.Spec.lean ====
/-
  Both programs' results as functions of the fourteen argument arrays, and their equality on the extended reals.

  One relation of the graph convolution takes source features X, a weight W, a bias b and the edges' endpoints
  (src, dst). With deg_out the number of edges leaving each source node and deg_in the number entering each destination
  node, both clipped below at 1, it returns  (Σ over edges into a node of M(src)) · deg_in^(-1/2) + b,  where
  M = (X·W) · deg_out^(-1/2) row by row. The first result adds two relations into the first node type; the second is a
  third relation into the second node type.

  The kernel's program computes M in a Pallas call (the dense stage, `transform`) and deg_in^(-1/2) by the host's
  reciprocal square root; the reference computes M by the host's dot product times `power` with exponent −1/2, and
  deg_in^(-1/2) by `power` too. Everything else — the degrees (scatter-adds of ones), the gather of M's rows by src
  (negative indices wrapped), the scatter-add by dst, the broadcasts — is the same operations on both sides. A clipped
  degree is at least 1, where the reciprocal square root and the power −1/2 agree; so the two results are equal.
-/
import proofs.«164379_j69793218560321_1_alg».proof.KernelIdeal
import proofs.«164379_j69793218560321_1_alg».proof.ReferenceIdeal
import proofs.«164379_j69793218560321_1_alg».proof.Proof.Transform
import proofs.«164379_j69793218560321_1_alg».proof.Proof.Law

noncomputable section

namespace Cert.GraphConv

open Idealize.ShloMosaic Idealize.ShloMosaic.ValueIdx
open Cert.KernelIdeal
open Cert.KernelIdeal.Facts₀

variable [Cert.KernelIdeal.Facts₀] [Cert.ReferenceIdeal.Facts₀]

/-! ## Degrees: for each node, how many of the given edge endpoints name it, at least 1 -/

/-- Over 50000 nodes and 600000 edges. -/
def deg50k6 (idx : (⟨S600000, .i32⟩ : BufTy).Contents (Elt Ideal)) : FVec Ideal S50000 .f32 :=
  maximumf (broadcastInDim S50000 ![] bcast_S_S50000 (id (constant S_ .f32 0x3F800000#32)))
    (Host.scatterAdd scatter_S50000_S600000x1_S600000_n_0_0_1 (broadcastInDim S50000 ![] bcast_S_S50000 (constant S_ .f32 0x00000000#32))
      (broadcastInDim S600000x1 ![0] bcast_S600000_S600000x1_0 idx) (broadcastInDim S600000 ![] bcast_S_S600000 (constant S_ .f32 0x3F800000#32)))

/-- Over 50000 nodes and 300000 edges. -/
def deg50k3 (idx : (⟨S300000, .i32⟩ : BufTy).Contents (Elt Ideal)) : FVec Ideal S50000 .f32 :=
  maximumf (broadcastInDim S50000 ![] bcast_S_S50000 (id (constant S_ .f32 0x3F800000#32)))
    (Host.scatterAdd scatter_S50000_S300000x1_S300000_n_0_0_1 (broadcastInDim S50000 ![] bcast_S_S50000 (constant S_ .f32 0x00000000#32))
      (broadcastInDim S300000x1 ![0] bcast_S300000_S300000x1_0 idx) (broadcastInDim S300000 ![] bcast_S_S300000 (constant S_ .f32 0x3F800000#32)))

/-- Over 20000 nodes and 300000 edges. -/
def deg20k3 (idx : (⟨S300000, .i32⟩ : BufTy).Contents (Elt Ideal)) : FVec Ideal S20000 .f32 :=
  maximumf (broadcastInDim S20000 ![] bcast_S_S20000 (id (constant S_ .f32 0x3F800000#32)))
    (Host.scatterAdd scatter_S20000_S300000x1_S300000_n_0_0_1 (broadcastInDim S20000 ![] bcast_S_S20000 (constant S_ .f32 0x00000000#32))
      (broadcastInDim S300000x1 ![0] bcast_S300000_S300000x1_0 idx) (broadcastInDim S300000 ![] bcast_S_S300000 (constant S_ .f32 0x3F800000#32)))

/-- The exponent −1/2 broadcast over 50000 nodes, and over 20000. -/
def negHalf50k : FVec Ideal S50000 .f32 := broadcastInDim S50000 ![] bcast_S_S50000 (constant S_ .f32 0xBF000000#32)
def negHalf20k : FVec Ideal S20000 .f32 := broadcastInDim S20000 ![] bcast_S_S20000 (constant S_ .f32 0xBF000000#32)

/-! ## The dense stage M, in the reference's spelling -/

/-- 50000 source nodes, out-degrees over 600000 edges. -/
def denseRef50k6 (x : FVec Ideal S50000x128 .f32) (w : FVec Ideal S128x128 .f32) (src : (⟨S600000, .i32⟩ : BufTy).Contents (Elt Ideal)) : FVec Ideal S50000x128 .f32 :=
  mulf (Host.dotGeneral Cert.ReferenceIdeal.dot_S50000x128_S128x128_S50000x128_1_0_0_1_n_n none x w)
    (broadcastInDim S50000x128 ![0, 1] bcast_S50000x1_S50000x128_0_1 (broadcastInDim S50000x1 ![0] bcast_S50000_S50000x1_0 (Host.powf (deg50k6 src) negHalf50k)))

/-- 50000 source nodes, out-degrees over 300000 edges. -/
def denseRef50k3 (x : FVec Ideal S50000x128 .f32) (w : FVec Ideal S128x128 .f32) (src : (⟨S300000, .i32⟩ : BufTy).Contents (Elt Ideal)) : FVec Ideal S50000x128 .f32 :=
  mulf (Host.dotGeneral Cert.ReferenceIdeal.dot_S50000x128_S128x128_S50000x128_1_0_0_1_n_n none x w)
    (broadcastInDim S50000x128 ![0, 1] bcast_S50000x1_S50000x128_0_1 (broadcastInDim S50000x1 ![0] bcast_S50000_S50000x1_0 (Host.powf (deg50k3 src) negHalf50k)))

/-- 20000 source nodes, out-degrees over 300000 edges. -/
def denseRef20k3 (x : FVec Ideal S20000x128 .f32) (w : FVec Ideal S128x128 .f32) (src : (⟨S300000, .i32⟩ : BufTy).Contents (Elt Ideal)) : FVec Ideal S20000x128 .f32 :=
  mulf (Host.dotGeneral Cert.ReferenceIdeal.dot_S20000x128_S128x128_S20000x128_1_0_0_1_n_n none x w)
    (broadcastInDim S20000x128 ![0, 1] bcast_S20000x1_S20000x128_0_1 (broadcastInDim S20000x1 ![0] bcast_S20000_S20000x1_0 (Host.powf (deg20k3 src) negHalf20k)))

/-! ## The dense stage M, as the kernel's regions leave it -/

def denseKer50k6 (x : FVec Ideal S50000x128 .f32) (w : FVec Ideal S128x128 .f32) (src : (⟨S600000, .i32⟩ : BufTy).Contents (Elt Ideal)) : FVec Ideal S50000x128 .f32 :=
  transform (n := 50000) x w (shapeCast S50000x1 (deg50k6 src) shapeCasts_S50000_S50000x1)

def denseKer50k3 (x : FVec Ideal S50000x128 .f32) (w : FVec Ideal S128x128 .f32) (src : (⟨S300000, .i32⟩ : BufTy).Contents (Elt Ideal)) : FVec Ideal S50000x128 .f32 :=
  transform (n := 50000) x w (shapeCast S50000x1 (deg50k3 src) shapeCasts_S50000_S50000x1)

def denseKer20k3 (x : FVec Ideal S20000x128 .f32) (w : FVec Ideal S128x128 .f32) (src : (⟨S300000, .i32⟩ : BufTy).Contents (Elt Ideal)) : FVec Ideal S20000x128 .f32 :=
  transform (n := 20000) x w (shapeCast S20000x1 (deg20k3 src) shapeCasts_S20000_S20000x1)

theorem one50k_apply (i : S50000.Idx) :
    (broadcastInDim S50000 ![] bcast_S_S50000 (id (constant (F := Ideal) S_ .f32 0x3F800000#32)) : FVec Ideal S50000 .f32) i = Ideal.ofBits .f32 0x3F800000#32 := rfl
theorem one20k_apply (i : S20000.Idx) :
    (broadcastInDim S20000 ![] bcast_S_S20000 (id (constant (F := Ideal) S_ .f32 0x3F800000#32)) : FVec Ideal S20000 .f32) i = Ideal.ofBits .f32 0x3F800000#32 := rfl
theorem negHalf50k_apply (i : S50000.Idx) : negHalf50k i = Ideal.ofBits .f32 0xBF000000#32 := rfl
theorem negHalf20k_apply (i : S20000.Idx) : negHalf20k i = Ideal.ofBits .f32 0xBF000000#32 := rfl

theorem denseKer50k6_eq (x : FVec Ideal S50000x128 .f32) (w : FVec Ideal S128x128 .f32) (src : (⟨S600000, .i32⟩ : BufTy).Contents (Elt Ideal)) :
    denseKer50k6 x w src = denseRef50k6 x w src :=
  transform_eq_dot_pow (n := 50000) Cert.ReferenceIdeal.dot_S50000x128_S128x128_S50000x128_1_0_0_1_n_n rfl rfl rfl rfl rfl rfl rfl rfl x w _ _ negHalf50k
    one50k_apply negHalf50k_apply shapeCasts_S50000_S50000x1 bcast_S50000_S50000x1_0 bcast_S50000x1_S50000x128_0_1

theorem denseKer50k3_eq (x : FVec Ideal S50000x128 .f32) (w : FVec Ideal S128x128 .f32) (src : (⟨S300000, .i32⟩ : BufTy).Contents (Elt Ideal)) :
    denseKer50k3 x w src = denseRef50k3 x w src :=
  transform_eq_dot_pow (n := 50000) Cert.ReferenceIdeal.dot_S50000x128_S128x128_S50000x128_1_0_0_1_n_n rfl rfl rfl rfl rfl rfl rfl rfl x w _ _ negHalf50k
    one50k_apply negHalf50k_apply shapeCasts_S50000_S50000x1 bcast_S50000_S50000x1_0 bcast_S50000x1_S50000x128_0_1

theorem denseKer20k3_eq (x : FVec Ideal S20000x128 .f32) (w : FVec Ideal S128x128 .f32) (src : (⟨S300000, .i32⟩ : BufTy).Contents (Elt Ideal)) :
    denseKer20k3 x w src = denseRef20k3 x w src :=
  transform_eq_dot_pow (n := 20000) Cert.ReferenceIdeal.dot_S20000x128_S128x128_S20000x128_1_0_0_1_n_n rfl rfl rfl rfl rfl rfl rfl rfl x w _ _ negHalf20k
    one20k_apply negHalf20k_apply shapeCasts_S20000_S20000x1 bcast_S20000_S20000x1_0 bcast_S20000x1_S20000x128_0_1

/-! ## A clipped degree's reciprocal square root is its power −1/2 -/

theorem rsqrt_deg50k6 (idx : (⟨S600000, .i32⟩ : BufTy).Contents (Elt Ideal)) : Host.rsqrt (deg50k6 idx) = Host.powf (deg50k6 idx) negHalf50k :=
  host_rsqrt_max_eq_powf _ _ negHalf50k one50k_apply negHalf50k_apply
theorem rsqrt_deg50k3 (idx : (⟨S300000, .i32⟩ : BufTy).Contents (Elt Ideal)) : Host.rsqrt (deg50k3 idx) = Host.powf (deg50k3 idx) negHalf50k :=
  host_rsqrt_max_eq_powf _ _ negHalf50k one50k_apply negHalf50k_apply
theorem rsqrt_deg20k3 (idx : (⟨S300000, .i32⟩ : BufTy).Contents (Elt Ideal)) : Host.rsqrt (deg20k3 idx) = Host.powf (deg20k3 idx) negHalf20k :=
  host_rsqrt_max_eq_powf _ _ negHalf20k one20k_apply negHalf20k_apply

/-! ## The aggregation of one relation: gather M's rows by src, add them up by dst, scale by r = deg_in^(-1/2), add b -/

/-- 600000 edges from 50000 source nodes into 50000 destination nodes. -/
def agg6 (mm : FVec Ideal S50000x128 .f32) (r : FVec Ideal S50000 .f32) (src dst : (⟨S600000, .i32⟩ : BufTy).Contents (Elt Ideal))
    (b : FVec Ideal S128 .f32) : FVec Ideal S50000x128 .f32 :=
  addf (mulf (Host.scatterAdd scatter_S50000x128_S600000x1_S600000x128_1_0_0_1 (broadcastInDim S50000x128 ![] bcast_S_S50000x128 (constant S_ .f32 0x00000000#32))
        (broadcastInDim S600000x1 ![0] bcast_S600000_S600000x1_0 dst)
        (Host.gather gather_S50000x128_S600000x1_S600000x128_1_0_n_n_0_1_1128 mm
          (broadcastInDim S600000x1 ![0] bcast_S600000_S600000x1_0
            (select (cmpi .slt src (broadcastInDim S600000 ![] bcast_S_S600000 (constantI S_ 32 0#32)))
              (addi src (broadcastInDim S600000 ![] bcast_S_S600000 (constantI S_ 32 50000#32))) src))))
      (broadcastInDim S50000x128 ![0, 1] bcast_S50000x1_S50000x128_0_1 (broadcastInDim S50000x1 ![0] bcast_S50000_S50000x1_0 r)))
    (broadcastInDim S50000x128 ![0, 1] bcast_S1x128_S50000x128_0_1 (broadcastInDim S1x128 ![1] bcast_S128_S1x128_1 b))

/-- 300000 edges from 20000 source nodes into 50000 destination nodes. -/
def agg3to50k (mm : FVec Ideal S20000x128 .f32) (r : FVec Ideal S50000 .f32) (src dst : (⟨S300000, .i32⟩ : BufTy).Contents (Elt Ideal))
    (b : FVec Ideal S128 .f32) : FVec Ideal S50000x128 .f32 :=
  addf (mulf (Host.scatterAdd scatter_S50000x128_S300000x1_S300000x128_1_0_0_1 (broadcastInDim S50000x128 ![] bcast_S_S50000x128 (constant S_ .f32 0x00000000#32))
        (broadcastInDim S300000x1 ![0] bcast_S300000_S300000x1_0 dst)
        (Host.gather gather_S20000x128_S300000x1_S300000x128_1_0_n_n_0_1_1128 mm
          (broadcastInDim S300000x1 ![0] bcast_S300000_S300000x1_0
            (select (cmpi .slt src (broadcastInDim S300000 ![] bcast_S_S300000 (constantI S_ 32 0#32)))
              (addi src (broadcastInDim S300000 ![] bcast_S_S300000 (constantI S_ 32 20000#32))) src))))
      (broadcastInDim S50000x128 ![0, 1] bcast_S50000x1_S50000x128_0_1 (broadcastInDim S50000x1 ![0] bcast_S50000_S50000x1_0 r)))
    (broadcastInDim S50000x128 ![0, 1] bcast_S1x128_S50000x128_0_1 (broadcastInDim S1x128 ![1] bcast_S128_S1x128_1 b))

/-- 300000 edges from 50000 source nodes into 20000 destination nodes. -/
def agg3to20k (mm : FVec Ideal S50000x128 .f32) (r : FVec Ideal S20000 .f32) (src dst : (⟨S300000, .i32⟩ : BufTy).Contents (Elt Ideal))
    (b : FVec Ideal S128 .f32) : FVec Ideal S20000x128 .f32 :=
  addf (mulf (Host.scatterAdd scatter_S20000x128_S300000x1_S300000x128_1_0_0_1 (broadcastInDim S20000x128 ![] bcast_S_S20000x128 (constant S_ .f32 0x00000000#32))
        (broadcastInDim S300000x1 ![0] bcast_S300000_S300000x1_0 dst)
        (Host.gather gather_S50000x128_S300000x1_S300000x128_1_0_n_n_0_1_1128 mm
          (broadcastInDim S300000x1 ![0] bcast_S300000_S300000x1_0
            (select (cmpi .slt src (broadcastInDim S300000 ![] bcast_S_S300000 (constantI S_ 32 0#32)))
              (addi src (broadcastInDim S300000 ![] bcast_S_S300000 (constantI S_ 32 50000#32))) src))))
      (broadcastInDim S20000x128 ![0, 1] bcast_S20000x1_S20000x128_0_1 (broadcastInDim S20000x1 ![0] bcast_S20000_S20000x1_0 r)))
    (broadcastInDim S20000x128 ![0, 1] bcast_S1x128_S20000x128_0_1 (broadcastInDim S1x128 ![1] bcast_S128_S1x128_1 b))

/-! ## The two results, as each program computes them, and their equality -/

/-- The first result as the kernel's program computes it. -/
def outAKer (hA : FVec Ideal S50000x128 .f32) (hB : FVec Ideal S20000x128 .f32) (W0 : FVec Ideal S128x128 .f32) (b0 : FVec Ideal S128 .f32)
    (W2 : FVec Ideal S128x128 .f32) (b2 : FVec Ideal S128 .f32) (src0 dst0 : (⟨S600000, .i32⟩ : BufTy).Contents (Elt Ideal))
    (src2 dst2 : (⟨S300000, .i32⟩ : BufTy).Contents (Elt Ideal)) : FVec Ideal S50000x128 .f32 :=
  addf (agg6 (denseKer50k6 hA W0 src0) (Host.rsqrt (deg50k6 dst0)) src0 dst0 b0)
    (agg3to50k (denseKer20k3 hB W2 src2) (Host.rsqrt (deg50k3 dst2)) src2 dst2 b2)

/-- The first result as the reference computes it. -/
def outARef (hA : FVec Ideal S50000x128 .f32) (hB : FVec Ideal S20000x128 .f32) (W0 : FVec Ideal S128x128 .f32) (b0 : FVec Ideal S128 .f32)
    (W2 : FVec Ideal S128x128 .f32) (b2 : FVec Ideal S128 .f32) (src0 dst0 : (⟨S600000, .i32⟩ : BufTy).Contents (Elt Ideal))
    (src2 dst2 : (⟨S300000, .i32⟩ : BufTy).Contents (Elt Ideal)) : FVec Ideal S50000x128 .f32 :=
  addf (agg6 (denseRef50k6 hA W0 src0) (Host.powf (deg50k6 dst0) negHalf50k) src0 dst0 b0)
    (agg3to50k (denseRef20k3 hB W2 src2) (Host.powf (deg50k3 dst2) negHalf50k) src2 dst2 b2)

/-- The second result as the kernel's program computes it. -/
def outBKer (hA : FVec Ideal S50000x128 .f32) (W1 : FVec Ideal S128x128 .f32) (b1 : FVec Ideal S128 .f32)
    (src1 dst1 : (⟨S300000, .i32⟩ : BufTy).Contents (Elt Ideal)) : FVec Ideal S20000x128 .f32 :=
  agg3to20k (denseKer50k3 hA W1 src1) (Host.rsqrt (deg20k3 dst1)) src1 dst1 b1

/-- The second result as the reference computes it. -/
def outBRef (hA : FVec Ideal S50000x128 .f32) (W1 : FVec Ideal S128x128 .f32) (b1 : FVec Ideal S128 .f32)
    (src1 dst1 : (⟨S300000, .i32⟩ : BufTy).Contents (Elt Ideal)) : FVec Ideal S20000x128 .f32 :=
  agg3to20k (denseRef50k3 hA W1 src1) (Host.powf (deg20k3 dst1) negHalf20k) src1 dst1 b1

theorem outA_eq (hA : FVec Ideal S50000x128 .f32) (hB : FVec Ideal S20000x128 .f32) (W0 : FVec Ideal S128x128 .f32) (b0 : FVec Ideal S128 .f32)
    (W2 : FVec Ideal S128x128 .f32) (b2 : FVec Ideal S128 .f32) (src0 dst0 : (⟨S600000, .i32⟩ : BufTy).Contents (Elt Ideal))
    (src2 dst2 : (⟨S300000, .i32⟩ : BufTy).Contents (Elt Ideal)) :
    outAKer hA hB W0 b0 W2 b2 src0 dst0 src2 dst2 = outARef hA hB W0 b0 W2 b2 src0 dst0 src2 dst2 := by
  unfold outAKer outARef
  rw [denseKer50k6_eq, denseKer20k3_eq, rsqrt_deg50k6, rsqrt_deg50k3]

theorem outB_eq (hA : FVec Ideal S50000x128 .f32) (W1 : FVec Ideal S128x128 .f32) (b1 : FVec Ideal S128 .f32)
    (src1 dst1 : (⟨S300000, .i32⟩ : BufTy).Contents (Elt Ideal)) :
    outBKer hA W1 b1 src1 dst1 = outBRef hA W1 b1 src1 dst1 := by
  unfold outBKer outBRef
  rw [denseKer50k3_eq, rsqrt_deg20k3]

end Cert.GraphConv

end
-- ==== Proof.WalkA.lean ====
/-
  The kernel's program read back: what the fold of buffer contents through @main holds at the two result buffers, as
  functions of the argument arrays.
  @main is four stretches of host operations around three Pallas regions. A stretch leaves in each buffer it writes
  the operation's value of what it read; a region leaves its output array at the dense stage of its three input arrays
  as it found them (Region0, Region1, Region2) and every buffer that is not one of its arrays as it was. Walking back
  from the end: each result is the aggregation (gather by source, scatter-add by destination, scale by the in-degree's
  reciprocal square root, add the bias) of a region's output, and each region's inputs are two arguments and a clipped
  out-degree reshaped to a column.
-/
import proofs.«164379_j69793218560321_1_alg».proof.Proof.Gen.KernelIdeal.Frame
import proofs.«164379_j69793218560321_1_alg».proof.Proof.Region0
import proofs.«164379_j69793218560321_1_alg».proof.Proof.Spec
import Idealize.ShloMosaic.Lib.StableHlo.Run

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Through the first stretches, from the launch memory to region 0's entry. -/
macro "walk0" : tactic => `(tactic| (dsimp only [W5, W4, W3, W2, W1]; simp only [hostOps0, hostOps0_1, hostOps0_2, hostOps0_3, hostOps0_4]; after_results_simp))
/-- From region 0's exit to region 1's entry. -/
macro "walk1" : tactic => `(tactic| (dsimp only [W11, W10, W9, W8, W7]; simp only [hostOps1, hostOps1_1, hostOps1_2, hostOps1_3, hostOps1_4]; after_results_simp))
/-- From region 1's exit to region 2's entry. -/
macro "walk2" : tactic => `(tactic| (dsimp only [W17, W16, W15, W14, W13]; simp only [hostOps2, hostOps2_1, hostOps2_2, hostOps2_3, hostOps2_4]; after_results_simp))
/-- From region 2's exit to the return. -/
macro "walk3" : tactic => `(tactic| (dsimp only [W19]; simp only [hostOps3]; after_results_simp))

/-! ## Region 0: its inputs and its output -/

theorem W5_arg0 : W5 m ρ c (Proc.devRef .tc main_arg0) = (m ((c.tc : Thread nD τ).loc main_arg0)) := by
  walk0; try rfl

theorem W5_arg2 : W5 m ρ c (Proc.devRef .tc main_arg2) = (m ((c.tc : Thread nD τ).loc main_arg2)) := by
  walk0; try rfl

theorem W5_v9 : W5 m ρ c (Proc.devRef .tc main_v9)
    = shapeCast S50000x1 (deg50k6 (m ((c.tc : Thread nD τ).loc main_arg8))) Facts₀.shapeCasts_S50000_S50000x1 := by
  walk0; try rfl

/-- Region 0 leaves the dense stage of the first node type's features, the first weight and the first relation's
    out-degrees. -/
theorem W6_v10 : W6 m ρ c (Proc.devRef .tc main_v10) = denseKer50k6 (m ((c.tc : Thread nD τ).loc main_arg0)) (m ((c.tc : Thread nD τ).loc main_arg2)) (m ((c.tc : Thread nD τ).loc main_arg8)) := by
  refine (W6_arr m ρ c 3).trans ((Region0.final (V5 m ρ) c).trans ?_)
  show transform (n := 50000) (W5 m ρ c (Proc.devRef .tc main_arg0)) (W5 m ρ c (Proc.devRef .tc main_arg2)) (W5 m ρ c (Proc.devRef .tc main_v9)) = _
  rw [W5_arg0, W5_arg2, W5_v9]; rfl

/-- Region 0 reads the first node type's features through an input window and leaves them as they were. -/
theorem W6_arg0 : W6 m ρ c (Proc.devRef .tc main_arg0) = (m ((c.tc : Thread nD τ).loc main_arg0)) :=
  ((W6_arr m ρ c 0).trans (((dat0 (V5 m ρ) c).arrAt_in 0 rfl _).trans (A_eq0 (V5 m ρ) c 0))).trans (W5_arg0 m ρ c)

end Cert.KernelIdeal.Walk

end
-- ==== Proof.WalkA2.lean ====
/-
  The launch contents carried through the first stretches of host operations: no operation there writes an argument,
  so each argument's buffer holds at region 0's entry what it held at launch; and the first relation's clipped
  in-degree, computed there.
-/
import proofs.«164379_j69793218560321_1_alg».proof.Proof.WalkA

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at region 0's entry -/

theorem W5_arg1 : W5 m ρ c (Proc.devRef .tc main_arg1) = (m ((c.tc : Thread nD τ).loc main_arg1)) := by
  walk0; try rfl

theorem W5_arg3 : W5 m ρ c (Proc.devRef .tc main_arg3) = (m ((c.tc : Thread nD τ).loc main_arg3)) := by
  walk0; try rfl

theorem W5_arg4 : W5 m ρ c (Proc.devRef .tc main_arg4) = (m ((c.tc : Thread nD τ).loc main_arg4)) := by
  walk0; try rfl

theorem W5_arg5 : W5 m ρ c (Proc.devRef .tc main_arg5) = (m ((c.tc : Thread nD τ).loc main_arg5)) := by
  walk0; try rfl

theorem W5_arg6 : W5 m ρ c (Proc.devRef .tc main_arg6) = (m ((c.tc : Thread nD τ).loc main_arg6)) := by
  walk0; try rfl

theorem W5_arg7 : W5 m ρ c (Proc.devRef .tc main_arg7) = (m ((c.tc : Thread nD τ).loc main_arg7)) := by
  walk0; try rfl

theorem W5_arg8 : W5 m ρ c (Proc.devRef .tc main_arg8) = (m ((c.tc : Thread nD τ).loc main_arg8)) := by
  walk0; try rfl

theorem W5_arg9 : W5 m ρ c (Proc.devRef .tc main_arg9) = (m ((c.tc : Thread nD τ).loc main_arg9)) := by
  walk0; try rfl

theorem W5_arg10 : W5 m ρ c (Proc.devRef .tc main_arg10) = (m ((c.tc : Thread nD τ).loc main_arg10)) := by
  walk0; try rfl

theorem W5_arg11 : W5 m ρ c (Proc.devRef .tc main_arg11) = (m ((c.tc : Thread nD τ).loc main_arg11)) := by
  walk0; try rfl

theorem W5_arg12 : W5 m ρ c (Proc.devRef .tc main_arg12) = (m ((c.tc : Thread nD τ).loc main_arg12)) := by
  walk0; try rfl

theorem W5_arg13 : W5 m ρ c (Proc.devRef .tc main_arg13) = (m ((c.tc : Thread nD τ).loc main_arg13)) := by
  walk0; try rfl

/-- The first relation's in-degrees over the first node type, clipped below at 1. -/
theorem W5_v8 : W5 m ρ c (Proc.devRef .tc main_v8) = deg50k6 (m ((c.tc : Thread nD τ).loc main_arg9)) := by
  walk0; try (unfold deg50k6; rfl)

end Cert.KernelIdeal.Walk

end
-- ==== Proof.WalkB2.lean ====
/-
  From region 0's exit to region 1's entry: the arguments still hold their launch contents (region 0 writes only its
  output array, the stretches write no argument); the first relation's whole contribution to the first result — the
  aggregation of region 0's output — and the third relation's clipped in-degree are computed there.
-/
import proofs.«164379_j69793218560321_1_alg».proof.Proof.WalkA2

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at region 1's entry -/

theorem W11_arg0 : W11 m ρ c (Proc.devRef .tc main_arg0) = (m ((c.tc : Thread nD τ).loc main_arg0)) := by
  walk1
  exact W6_arg0 m ρ c

theorem W11_arg4 : W11 m ρ c (Proc.devRef .tc main_arg4) = (m ((c.tc : Thread nD τ).loc main_arg4)) := by
  walk1
  rw [W6_of_ne m ρ c main_arg4 (by decide)]
  exact W5_arg4 m ρ c

theorem W11_arg5 : W11 m ρ c (Proc.devRef .tc main_arg5) = (m ((c.tc : Thread nD τ).loc main_arg5)) := by
  walk1
  rw [W6_of_ne m ρ c main_arg5 (by decide)]
  exact W5_arg5 m ρ c

theorem W11_arg7 : W11 m ρ c (Proc.devRef .tc main_arg7) = (m ((c.tc : Thread nD τ).loc main_arg7)) := by
  walk1
  rw [W6_of_ne m ρ c main_arg7 (by decide)]
  exact W5_arg7 m ρ c

theorem W11_arg10 : W11 m ρ c (Proc.devRef .tc main_arg10) = (m ((c.tc : Thread nD τ).loc main_arg10)) := by
  walk1
  rw [W6_of_ne m ρ c main_arg10 (by decide)]
  exact W5_arg10 m ρ c

theorem W11_arg11 : W11 m ρ c (Proc.devRef .tc main_arg11) = (m ((c.tc : Thread nD τ).loc main_arg11)) := by
  walk1
  rw [W6_of_ne m ρ c main_arg11 (by decide)]
  exact W5_arg11 m ρ c

theorem W11_arg12 : W11 m ρ c (Proc.devRef .tc main_arg12) = (m ((c.tc : Thread nD τ).loc main_arg12)) := by
  walk1
  rw [W6_of_ne m ρ c main_arg12 (by decide)]
  exact W5_arg12 m ρ c

theorem W11_arg13 : W11 m ρ c (Proc.devRef .tc main_arg13) = (m ((c.tc : Thread nD τ).loc main_arg13)) := by
  walk1
  rw [W6_of_ne m ρ c main_arg13 (by decide)]
  exact W5_arg13 m ρ c

/-! ## What the stretches between regions 0 and 1 compute for the first result -/

/-- The first relation's contribution: region 0's output gathered by source, added up by destination, scaled by the
    in-degrees' reciprocal square roots, plus the first bias. -/
theorem W11_v27 : W11 m ρ c (Proc.devRef .tc main_v27)
    = agg6 (denseKer50k6 (m ((c.tc : Thread nD τ).loc main_arg0)) (m ((c.tc : Thread nD τ).loc main_arg2)) (m ((c.tc : Thread nD τ).loc main_arg8))) (Host.rsqrt (deg50k6 (m ((c.tc : Thread nD τ).loc main_arg9)))) (m ((c.tc : Thread nD τ).loc main_arg8)) (m ((c.tc : Thread nD τ).loc main_arg9)) (m ((c.tc : Thread nD τ).loc main_arg3)) := by
  walk1
  rw [W6_v10, W6_of_ne m ρ c main_arg8 (by decide), W6_of_ne m ρ c main_arg9 (by decide), W6_of_ne m ρ c main_v8 (by decide),
    W6_of_ne m ρ c main_arg3 (by decide), W5_arg8, W5_arg9, W5_v8, W5_arg3]
  unfold agg6
  with_reducible rfl

/-- The third relation's in-degrees over the first node type, clipped below at 1. -/
theorem W11_v36 : W11 m ρ c (Proc.devRef .tc main_v36) = deg50k3 (m ((c.tc : Thread nD τ).loc main_arg13)) := by
  walk1
  rw [W6_of_ne m ρ c main_arg13 (by decide), W5_arg13]
  unfold deg50k3
  rfl

end Cert.KernelIdeal.Walk

end
-- ==== Proof.Region2.lean ====
/-
  Region 2 of the kernel's program (the dense stage of the relation from the first node type to the second): what its
  output array holds after the region, as one function of the arrays the region finds.
  Grid point t stages rows 5000·t … 5000·t + 4999 of the features and of the degree column and all of the weight, and
  writes back the body's result as rows 5000·t … of the output. The body's result on a block is the dense stage on the
  block; a block of rows of the dense stage over whole arrays is the dense stage over the blocks of rows; the ten blocks
  cover the 50000 rows. So the output array ends holding the dense stage of the whole arrays.
-/
import proofs.«164379_j69793218560321_1_alg».proof.Proof.Gen.KernelIdeal.Frame
import proofs.«164379_j69793218560321_1_alg».proof.Proof.Transform
import Idealize.ShloMosaic.Lib.Pipeline.Value

set_option maxRecDepth 16384

noncomputable section

namespace Cert.KernelIdeal.Region2

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload is the dense stage's block form. -/
theorem pay_eq (x0 : Vec Ideal S5000x128 .f32) (x1 : Vec Ideal S128x128 .f32) (x2 : Vec Ideal S5000x1 .f32) :
    k2_pay1 x0 x1 x2 = transform (n := 5000) x0 x1 x2 :=
  (show k2_pay1 x0 x1 x2 = body x0 x1 x2 from rfl).trans (body_eq_transform x0 x1 x2)

/-- The index maps over the grid: the features, the degree column and the output move down one block of rows per
    point; the weight stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is rows 5000·t … of the dense stage of the arrays as the region finds them. -/
theorem flushed_eq (c : Dev nD) (t : Fin cfg2.N) :
    (dat2 V c).flushed 3 t = ((cfg2.win 3).blk t).view.read (Elt Ideal)
      (transform (n := 50000) (V c main_arg0) (V c main_arg4) (V c main_v66)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  rw [pay_eq]
  obtain ⟨e00, e01, e10, e11, e20, e21, e30, e31⟩ := idx_facts t
  have hN : t.val < 10 := lt_of_lt_of_eq t.isLt N_2
  funext j
  obtain ⟨p, q, rfl⟩ : ∃ (p : Fin 5000) (q : Fin 128), j = ix2 p q := ⟨j 0, j 1, eq_ix2 j⟩
  have hP : t.val * 5000 + p.val < 50000 := by have := p.isLt; omega
  show transform (n := 5000) (iblk2 V c 0 t) (iblk2 V c 1 t) (iblk2 V c 2 t) (ix2 p q)
    = transform (n := 50000) (V c main_arg0) (V c main_arg4) (V c main_v66) (((cfg2.win 3).blk t).view.emb (ix2 p q))
  have hemb : ((cfg2.win 3).blk t).view.emb (ix2 p q) = ix2 (⟨t.val * 5000 + p.val, hP⟩ : Fin 50000) q := by
    funext a; apply Fin.ext
    match a with
    | ⟨0, _⟩ => show win2_3.index t (0 : Fin 2) * 5000 + 1 * p.val = t.val * 5000 + p.val; rw [e30]; omega
    | ⟨1, _⟩ => show win2_3.index t (1 : Fin 2) * 128 + 1 * q.val = q.val; rw [e31]; omega
  rw [hemb]
  refine transform_rows _ _ _ _ _ _ p q ⟨t.val * 5000 + p.val, hP⟩ (fun k => ?_) (fun k => ?_) ?_
  · show V c main_arg0 (((cfg2.win 0).blk t).view.emb (ix2 p k)) = V c main_arg0 (ix2 (⟨t.val * 5000 + p.val, hP⟩ : Fin 50000) k)
    congr 1
    funext a; apply Fin.ext
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  · show V c main_arg4 (((cfg2.win 1).blk t).view.emb (ix2 k q)) = V c main_arg4 (ix2 k q)
    congr 1
    funext a; apply Fin.ext
    match a with
    | ⟨0, _⟩ => show win2_1.index t (0 : Fin 2) * 128 + 1 * k.val = k.val; rw [e10]; omega
    | ⟨1, _⟩ => show win2_1.index t (1 : Fin 2) * 128 + 1 * q.val = q.val; rw [e11]; omega
  · show V c main_v66 (((cfg2.win 2).blk t).view.emb (ix2 p (0 : Fin 1))) = V c main_v66 (ix2 (⟨t.val * 5000 + p.val, hP⟩ : Fin 50000) (0 : Fin 1))
    congr 1
    funext a; apply Fin.ext
    match a with
    | ⟨0, _⟩ => show win2_2.index t (0 : Fin 2) * 5000 + 1 * p.val = t.val * 5000 + p.val; rw [e20]; omega
    | ⟨1, _⟩ => show win2_2.index t (1 : Fin 2) * 1 + 1 * 0 = 0; rw [e21]

/-- An index of the output array is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v67).slice (win2_3.rect t)).set ↔ _
  rw [View.set_slice_whole, Rect.mem_set_unit]
  exact Iff.rfl

/-- The output array after the region is the dense stage of the arrays as the region finds them: row r is written by
    point r / 5000. -/
theorem final (c : Dev nD) :
    (dat2 V c).arrAt 3 cfg2.N = transform (n := 50000) (V c main_arg0) (V c main_arg4) (V c main_v66) :=
  (dat2 V c).arrAt_eq_of_cover 3 _ (fun t _ => flushed_eq V c t) fun i => by
    have hi0 : (i 0).val < 50000 := (i 0).isLt
    have hi1 : (i 1).val < 128 := (i 1).isLt
    have hN : cfg2.N = 10 := N_2
    let t : Fin cfg2.N := ⟨(i 0).val / 5000, by rw [hN]; omega⟩
    obtain ⟨e00, e01, e10, e11, e20, e21, e30, e31⟩ := idx_facts t
    refine ⟨t, flush2_3 t, ?_⟩
    rw [mem_blk]
    intro a
    match a with
    | ⟨0, _⟩ =>
      show win2_3.index t (0 : Fin 2) * 5000 ≤ (i 0).val ∧ (i 0).val < win2_3.index t (0 : Fin 2) * 5000 + 5000
      rw [e30]; show (i 0).val / 5000 * 5000 ≤ (i 0).val ∧ (i 0).val < (i 0).val / 5000 * 5000 + 5000; omega
    | ⟨1, _⟩ =>
      show win2_3.index t (1 : Fin 2) * 128 ≤ (i 1).val ∧ (i 1).val < win2_3.index t (1 : Fin 2) * 128 + 128
      rw [e31]; omega

end Cert.KernelIdeal.Region2

end
-- ==== Proof.WalkC.lean ====
/-
  Region 2 of the kernel's program in the fold of buffer contents: its three input arrays at its entry (two arguments,
  one of them read before by region 0, and the second relation's clipped out-degree as a column) and the dense stage it
  leaves in its output array.
-/
import proofs.«164379_j69793218560321_1_alg».proof.Proof.WalkB2
import proofs.«164379_j69793218560321_1_alg».proof.Proof.Region2

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 2: its inputs and its output -/

theorem W17_arg0 : W17 m ρ c (Proc.devRef .tc main_arg0) = (m ((c.tc : Thread nD τ).loc main_arg0)) := by
  walk2
  rw [W12_of_ne m ρ c main_arg0 (by decide)]
  exact W11_arg0 m ρ c

theorem W17_arg4 : W17 m ρ c (Proc.devRef .tc main_arg4) = (m ((c.tc : Thread nD τ).loc main_arg4)) := by
  walk2
  rw [W12_of_ne m ρ c main_arg4 (by decide)]
  exact W11_arg4 m ρ c

theorem W17_v66 : W17 m ρ c (Proc.devRef .tc main_v66)
    = shapeCast S50000x1 (deg50k3 (m ((c.tc : Thread nD τ).loc main_arg10))) Facts₀.shapeCasts_S50000_S50000x1 := by
  walk2
  rw [W12_of_ne m ρ c main_arg10 (by decide), W11_arg10]
  try (unfold deg50k3; rfl)

/-- Region 2 leaves the dense stage of the first node type's features, the second weight and the second relation's
    out-degrees. -/
theorem W18_v67 : W18 m ρ c (Proc.devRef .tc main_v67) = denseKer50k3 (m ((c.tc : Thread nD τ).loc main_arg0)) (m ((c.tc : Thread nD τ).loc main_arg4)) (m ((c.tc : Thread nD τ).loc main_arg10)) := by
  refine (W18_arr m ρ c 3).trans ((Region2.final (V17 m ρ) c).trans ?_)
  show transform (n := 50000) (W17 m ρ c (Proc.devRef .tc main_arg0)) (W17 m ρ c (Proc.devRef .tc main_arg4)) (W17 m ρ c (Proc.devRef .tc main_v66)) = _
  rw [W17_arg0, W17_arg4, W17_v66]; rfl

end Cert.KernelIdeal.Walk

end
-- ==== Proof.Region1.lean ====
/-
  Region 1 of the kernel's program (the dense stage of the relation from the second node type to the first): what its
  output array holds after the region, as one function of the arrays the region finds.
  Grid point t stages rows 5000·t … 5000·t + 4999 of the features and of the degree column and all of the weight, and
  writes back the body's result as rows 5000·t … of the output. The body's result on a block is the dense stage on the
  block; a block of rows of the dense stage over whole arrays is the dense stage over the blocks of rows; the four blocks
  cover the 20000 rows. So the output array ends holding the dense stage of the whole arrays.
-/
import proofs.«164379_j69793218560321_1_alg».proof.Proof.Gen.KernelIdeal.Frame
import proofs.«164379_j69793218560321_1_alg».proof.Proof.Transform
import Idealize.ShloMosaic.Lib.Pipeline.Value

set_option maxRecDepth 16384

noncomputable section

namespace Cert.KernelIdeal.Region1

open Cert.KernelIdeal Cert.KernelIdeal.Gen Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's payload is the dense stage's block form. -/
theorem pay_eq (x0 : Vec Ideal S5000x128 .f32) (x1 : Vec Ideal S128x128 .f32) (x2 : Vec Ideal S5000x1 .f32) :
    k1_pay1 x0 x1 x2 = transform (n := 5000) x0 x1 x2 :=
  (show k1_pay1 x0 x1 x2 = body x0 x1 x2 from rfl).trans (body_eq_transform x0 x1 x2)

/-- The index maps over the grid: the features, the degree column and the output move down one block of rows per
    point; the weight stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is rows 5000·t … of the dense stage of the arrays as the region finds them. -/
theorem flushed_eq (c : Dev nD) (t : Fin cfg1.N) :
    (dat1 V c).flushed 3 t = ((cfg1.win 3).blk t).view.read (Elt Ideal)
      (transform (n := 20000) (V c main_arg1) (V c main_arg6) (V c main_v37)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S5000x1) hz]
  rw [pay_eq]
  obtain ⟨e00, e01, e10, e11, e20, e21, e30, e31⟩ := idx_facts t
  have hN : t.val < 4 := lt_of_lt_of_eq t.isLt N_1
  funext j
  obtain ⟨p, q, rfl⟩ : ∃ (p : Fin 5000) (q : Fin 128), j = ix2 p q := ⟨j 0, j 1, eq_ix2 j⟩
  have hP : t.val * 5000 + p.val < 20000 := by have := p.isLt; omega
  show transform (n := 5000) (iblk1 V c 0 t) (iblk1 V c 1 t) (iblk1 V c 2 t) (ix2 p q)
    = transform (n := 20000) (V c main_arg1) (V c main_arg6) (V c main_v37) (((cfg1.win 3).blk t).view.emb (ix2 p q))
  have hemb : ((cfg1.win 3).blk t).view.emb (ix2 p q) = ix2 (⟨t.val * 5000 + p.val, hP⟩ : Fin 20000) q := by
    funext a; apply Fin.ext
    match a with
    | ⟨0, _⟩ => show win1_3.index t (0 : Fin 2) * 5000 + 1 * p.val = t.val * 5000 + p.val; rw [e30]; omega
    | ⟨1, _⟩ => show win1_3.index t (1 : Fin 2) * 128 + 1 * q.val = q.val; rw [e31]; omega
  rw [hemb]
  refine transform_rows _ _ _ _ _ _ p q ⟨t.val * 5000 + p.val, hP⟩ (fun k => ?_) (fun k => ?_) ?_
  · show V c main_arg1 (((cfg1.win 0).blk t).view.emb (ix2 p k)) = V c main_arg1 (ix2 (⟨t.val * 5000 + p.val, hP⟩ : Fin 20000) k)
    congr 1
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  · show V c main_arg6 (((cfg1.win 1).blk t).view.emb (ix2 k q)) = V c main_arg6 (ix2 k q)
    congr 1
    funext a; apply Fin.ext
    match a with
    | ⟨0, _⟩ => show win1_1.index t (0 : Fin 2) * 128 + 1 * k.val = k.val; rw [e10]; omega
    | ⟨1, _⟩ => show win1_1.index t (1 : Fin 2) * 128 + 1 * q.val = q.val; rw [e11]; omega
  · show V c main_v37 (((cfg1.win 2).blk t).view.emb (ix2 p (0 : Fin 1))) = V c main_v37 (ix2 (⟨t.val * 5000 + p.val, hP⟩ : Fin 20000) (0 : Fin 1))
    congr 1
    funext a; apply Fin.ext
    match a with
    | ⟨0, _⟩ => show win1_2.index t (0 : Fin 2) * 5000 + 1 * p.val = t.val * 5000 + p.val; rw [e20]; omega
    | ⟨1, _⟩ => show win1_2.index t (1 : Fin 2) * 1 + 1 * 0 = 0; rw [e21]

/-- An index of the output array is in point t's block iff each coordinate is in the block's range on its axis. -/
theorem mem_blk (t : Fin cfg1.N) (i : S20000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v38).slice (win1_3.rect t)).set ↔ _
  rw [View.set_slice_whole, Rect.mem_set_unit]
  exact Iff.rfl

/-- The output array after the region is the dense stage of the arrays as the region finds them: row r is written by
    point r / 5000. -/
theorem final (c : Dev nD) :
    (dat1 V c).arrAt 3 cfg1.N = transform (n := 20000) (V c main_arg1) (V c main_arg6) (V c main_v37) :=
  (dat1 V c).arrAt_eq_of_cover 3 _ (fun t _ => flushed_eq V c t) fun i => by
    have hi0 : (i 0).val < 20000 := (i 0).isLt
    have hi1 : (i 1).val < 128 := (i 1).isLt
    have hN : cfg1.N = 4 := N_1
    let t : Fin cfg1.N := ⟨(i 0).val / 5000, by rw [hN]; omega⟩
    obtain ⟨e00, e01, e10, e11, e20, e21, e30, e31⟩ := idx_facts t
    refine ⟨t, flush1_3 t, ?_⟩
    rw [mem_blk]
    intro a
    match a with
    | ⟨0, _⟩ =>
      show win1_3.index t (0 : Fin 2) * 5000 ≤ (i 0).val ∧ (i 0).val < win1_3.index t (0 : Fin 2) * 5000 + 5000
      rw [e30]; show (i 0).val / 5000 * 5000 ≤ (i 0).val ∧ (i 0).val < (i 0).val / 5000 * 5000 + 5000; omega
    | ⟨1, _⟩ =>
      show win1_3.index t (1 : Fin 2) * 128 ≤ (i 1).val ∧ (i 1).val < win1_3.index t (1 : Fin 2) * 128 + 128
      rw [e31]; omega

end Cert.KernelIdeal.Region1

end
-- ==== Proof.WalkB.lean ====
/-
  Region 1 of the kernel's program in the fold of buffer contents: its three input arrays at its entry (two arguments
  and the third relation's clipped out-degree as a column) and the dense stage it leaves in its output array.
-/
import proofs.«164379_j69793218560321_1_alg».proof.Proof.WalkA2
import proofs.«164379_j69793218560321_1_alg».proof.Proof.Region1

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Region 1: its inputs and its output -/

theorem W11_arg1 : W11 m ρ c (Proc.devRef .tc main_arg1) = (m ((c.tc : Thread nD τ).loc main_arg1)) := by
  walk1
  rw [W6_of_ne m ρ c main_arg1 (by decide)]
  exact W5_arg1 m ρ c

theorem W11_arg6 : W11 m ρ c (Proc.devRef .tc main_arg6) = (m ((c.tc : Thread nD τ).loc main_arg6)) := by
  walk1
  rw [W6_of_ne m ρ c main_arg6 (by decide)]
  exact W5_arg6 m ρ c

theorem W11_v37 : W11 m ρ c (Proc.devRef .tc main_v37)
    = shapeCast S20000x1 (deg20k3 (m ((c.tc : Thread nD τ).loc main_arg12))) Facts₀.shapeCasts_S20000_S20000x1 := by
  walk1
  rw [W6_of_ne m ρ c main_arg12 (by decide), W5_arg12]
  try (unfold deg20k3; rfl)

/-- Region 1 leaves the dense stage of the second node type's features, the third weight and the third relation's
    out-degrees. -/
theorem W12_v38 : W12 m ρ c (Proc.devRef .tc main_v38) = denseKer20k3 (m ((c.tc : Thread nD τ).loc main_arg1)) (m ((c.tc : Thread nD τ).loc main_arg6)) (m ((c.tc : Thread nD τ).loc main_arg12)) := by
  refine (W12_arr m ρ c 3).trans ((Region1.final (V11 m ρ) c).trans ?_)
  show transform (n := 20000) (W11 m ρ c (Proc.devRef .tc main_arg1)) (W11 m ρ c (Proc.devRef .tc main_arg6)) (W11 m ρ c (Proc.devRef .tc main_v37)) = _
  rw [W11_arg1, W11_arg6, W11_v37]; rfl

end Cert.KernelIdeal.Walk

end
-- ==== Proof.WalkC2.lean ====
/-
  From region 1's exit to region 2's entry: the arguments the last stretch reads still hold their launch contents; the
  first result is complete there — the first relation's contribution plus the aggregation of region 1's output —, and
  the second relation's clipped in-degree is computed there.
-/
import proofs.«164379_j69793218560321_1_alg».proof.Proof.WalkB
import proofs.«164379_j69793218560321_1_alg».proof.Proof.WalkB2

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments at region 2's entry -/

theorem W17_arg5 : W17 m ρ c (Proc.devRef .tc main_arg5) = (m ((c.tc : Thread nD τ).loc main_arg5)) := by
  walk2
  rw [W12_of_ne m ρ c main_arg5 (by decide)]
  exact W11_arg5 m ρ c

theorem W17_arg10 : W17 m ρ c (Proc.devRef .tc main_arg10) = (m ((c.tc : Thread nD τ).loc main_arg10)) := by
  walk2
  rw [W12_of_ne m ρ c main_arg10 (by decide)]
  exact W11_arg10 m ρ c

theorem W17_arg11 : W17 m ρ c (Proc.devRef .tc main_arg11) = (m ((c.tc : Thread nD τ).loc main_arg11)) := by
  walk2
  rw [W12_of_ne m ρ c main_arg11 (by decide)]
  exact W11_arg11 m ρ c

/-- The second relation's in-degrees over the second node type, clipped below at 1. -/
theorem W17_v65 : W17 m ρ c (Proc.devRef .tc main_v65) = deg20k3 (m ((c.tc : Thread nD τ).loc main_arg11)) := by
  walk2
  rw [W12_of_ne m ρ c main_arg11 (by decide), W11_arg11]
  unfold deg20k3
  rfl

/-- The first result, complete before region 2: the first relation's contribution plus the third relation's — region
    1's output gathered by source, added up by destination, scaled, plus the third bias. -/
theorem W17_v56 : W17 m ρ c (Proc.devRef .tc main_v56)
    = outAKer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  walk2
  rw [W12_v38, W12_of_ne m ρ c main_v27 (by decide), W12_of_ne m ρ c main_arg12 (by decide), W12_of_ne m ρ c main_arg13 (by decide),
    W12_of_ne m ρ c main_v36 (by decide), W12_of_ne m ρ c main_arg7 (by decide),
    W11_v27, W11_arg12, W11_arg13, W11_v36, W11_arg7]
  unfold outAKer agg3to50k
  with_reducible rfl

end Cert.KernelIdeal.Walk

end
-- ==== Proof.WalkOut.lean ====
/-
  The two results of the kernel's program in the fold of buffer contents, as functions of the argument arrays. The
  last stretch of host operations leaves the first result as it was before region 2 and computes the second: region 2's
  output gathered by source, added up by destination, scaled by the in-degrees' reciprocal square roots, plus the
  second bias.
-/
import proofs.«164379_j69793218560321_1_alg».proof.Proof.WalkC
import proofs.«164379_j69793218560321_1_alg».proof.Proof.WalkC2

set_option maxRecDepth 16384

noncomputable section

namespace Cert.KernelIdeal.Walk

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The two results -/

theorem W19_v84 : W19 m ρ c (Proc.devRef .tc main_v84)
    = outBKer (m ((c.tc : Thread nD τ).loc main_arg0)) (m ((c.tc : Thread nD τ).loc main_arg4)) (m ((c.tc : Thread nD τ).loc main_arg5)) (m ((c.tc : Thread nD τ).loc main_arg10)) (m ((c.tc : Thread nD τ).loc main_arg11)) := by
  walk3
  rw [W18_v67, W18_of_ne m ρ c main_arg10 (by decide), W18_of_ne m ρ c main_arg11 (by decide),
    W18_of_ne m ρ c main_v65 (by decide), W18_of_ne m ρ c main_arg5 (by decide),
    W17_arg10, W17_arg11, W17_v65, W17_arg5]
  unfold outBKer agg3to20k
  with_reducible rfl

theorem W19_v56 : W19 m ρ c (Proc.devRef .tc main_v56)
    = outAKer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  walk3
  rw [W18_of_ne m ρ c main_v56 (by decide)]
  exact W17_v56 m ρ c

end Cert.KernelIdeal.Walk

end
-- ==== Proof.RefValue.lean ====
/-
  The reference's run read back: each of its two results as the reference's spelling of the graph convolution
  (`outARef`, `outBRef`) of its fourteen arguments. The run's composed terms are those functions written out, in the
  reference program's own copies of the shape records.
-/
import proofs.«164379_j69793218560321_1_alg».proof.Proof.Gen.ReferenceIdeal.Run
import proofs.«164379_j69793218560321_1_alg».proof.Proof.Gen.KernelIdeal
import proofs.«164379_j69793218560321_1_alg».proof.Proof.Spec

set_option maxRecDepth 16384

noncomputable section

namespace Cert.ReferenceIdeal.RefValue

open Cert.ReferenceIdeal Cert.ReferenceIdeal.Gen Cert.ReferenceIdeal.Value Cert.GraphConv
open Idealize.ShloMosaic Idealize.ShloMosaic.TcCoe Idealize.SL.Sem

variable (m : (ℓ : Loc nD τ sig) → Buf (Elt Ideal) ℓ) (ρ : Dev nD → PrngReg)

/-- The first result's composed term is the reference's spelling of the two relations into the first node type. -/
theorem out0_eq (c : Dev nD) : res_out0 (F := Ideal) m c
    = outARef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13)) := by
  show res_main_v66 (F := Ideal) m c = _
  unfold res_main_v66
  rfl

/-- The reference's run with its results named. -/
theorem run : θ_run defs (onTc (τ := τ) (main (F := Ideal))) ⟨m, fun _ => 0, ρ⟩ fun r => ∀ c : Dev nD,
      r.2.mem ((c.tc : Thread nD τ).loc main_v66)
        = outARef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_v99)
        = outBRef (m ((c.tc : Thread nD τ).loc main_arg0)) (m ((c.tc : Thread nD τ).loc main_arg4)) (m ((c.tc : Thread nD τ).loc main_arg5)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (out0_eq m c), (h c).2.1.trans rfl, (h c).2.2⟩)
    (Cert.ReferenceIdeal.Value.run (F := Ideal) m ρ)

end Cert.ReferenceIdeal.RefValue

end
-- ==== Proof.lean ====
/-
  A heterogeneous graph convolution over two node types and three relations: each relation sends source features X
  through a weight W, scales row p by deg_out(p)^(-1/2), sums the rows along the edges into their destination nodes,
  scales by deg_in^(-1/2) and adds a bias; the first result adds two relations, the second is the third. Degrees are
  edge counts clipped below at 1.

  The kernel's program computes each (X·W)·deg_out^(-1/2) in a Pallas call over blocks of 5000 rows — a bf16 matrix
  product accumulated in f32, times the reciprocal square root of the degree column — and everything else on the host,
  with the host's reciprocal square root for deg_in^(-1/2). The reference computes the same with the host's dot product
  and `power` with exponent −1/2 in both places. On the extended reals the narrowing to bf16 is the identity, both
  matrix products are the sum over the 128 columns, and at or above 1 the reciprocal square root is the power −1/2; the
  remaining host operations are the same on both sides. So the results are equal (Spec.lean), the kernel's read off the
  fold of buffer contents through its program (KernelRun.lean, the Walk modules, Region0–2.lean), the reference's off its run
  (RefValue.lean). The frames of the two kernel programs are the generated ones; the reference's is its run with the
  results dropped; the idealization rewrote nothing.
-/
import proofs.«164379_j69793218560321_1_alg».proof.Defs
import proofs.«164379_j69793218560321_1_alg».proof.Proof.Gen.Kernel
import proofs.«164379_j69793218560321_1_alg».proof.Proof.Gen.Kernel.Skeleton
import proofs.«164379_j69793218560321_1_alg».proof.Proof.Gen.Kernel.Launch
import proofs.«164379_j69793218560321_1_alg».proof.Proof.Gen.Kernel.Points
import proofs.«164379_j69793218560321_1_alg».proof.Proof.Gen.Kernel.Frame
import proofs.«164379_j69793218560321_1_alg».proof.Proof.Gen.KernelIdeal
import proofs.«164379_j69793218560321_1_alg».proof.Proof.Gen.KernelIdeal.Skeleton
import proofs.«164379_j69793218560321_1_alg».proof.Proof.Gen.KernelIdeal.Launch
import proofs.«164379_j69793218560321_1_alg».proof.Proof.Gen.KernelIdeal.Points
import proofs.«164379_j69793218560321_1_alg».proof.Proof.Gen.KernelIdeal.Frame
import proofs.«164379_j69793218560321_1_alg».proof.Proof.Gen.ReferenceIdeal
import proofs.«164379_j69793218560321_1_alg».proof.Proof.Gen.ReferenceIdeal.Run
import proofs.«164379_j69793218560321_1_alg».proof.Proof.Gen.Pre_finite_inputs
import proofs.«164379_j69793218560321_1_alg».proof.Proof.KernelRun
import proofs.«164379_j69793218560321_1_alg».proof.Proof.WalkOut
import proofs.«164379_j69793218560321_1_alg».proof.Proof.RefValue
import proofs.«164379_j69793218560321_1_alg».proof.Proof.Spec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the graph convolution of those arguments in their
    result buffers: the kernel's program in its own spelling (the walk through its fold), the reference in its own, and
    the two spellings are equal. -/
theorem algebraic : Cert.algebraic_KernelIdeal_ReferenceIdeal := by
  intro m ρ m' ρ' _ hagree
  refine ⟨fun c => Cert.GraphConv.outAKer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.GraphConv.outBKer (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Walk.W19_v56 m ρ c), (h c).2.1.trans (Cert.KernelIdeal.Walk.W19_v84 m ρ c), (h c).2.2⟩)
      (Cert.KernelIdeal.KRun.run_values m ρ)
  · refine (θ_run Cert.ReferenceIdeal.defs _ _).mono (fun _ h c => ?_) (Cert.ReferenceIdeal.RefValue.run m' ρ')
    obtain ⟨a0, a1, a2, a3, a4, a5, a6, a7, a8, a9, a10, a11, a12, a13⟩ := hagree c
    refine ⟨(h c).1.trans ?_, (h c).2.1.trans ?_, (h c).2.2⟩
    · rw [a0, a1, a2, a3, a6, a7, a8, a9, a12, a13]
      exact (Cert.GraphConv.outA_eq _ _ _ _ _ _ _ _ _ _).symm
    · rw [a0, a4, a5, a10, a11]
      exact (Cert.GraphConv.outB_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
